-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S1048576 : Shape := ⟨1, ![1048576]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1048576 : S_.BroadcastsInDim S1048576 (![] : Fin 0 → Fin S1048576.rank)
  reducesTo_S1048576_S_d0 : S1048576.ReducesTo [0] S_
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S4x2048x4096 .f32) (main_arg1 : IVec S16384x4096 32) (main_arg2 : FVec F S1048576 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1048576 .f32 := Host.absf main_arg2
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_c_2 : IVec S_ 32 := constantI S_ 32 0#32
  let main_v9 : IVec S16384x4096 32 := broadcastInDim S16384x4096 ![] bcast_S_S16384x4096 main_c_2
  let main_v10 : IVec S16384x4096 1 := cmpi .sge main_arg1 main_v9
  let main_c_3 : IVec S_ 1 := constantI S_ 1 1#1
  let main_v11 : IVec S_ 1 := (fun x v => Host.reduce IntOp.andi x v reducesTo_S16384x4096_S_d0_1 h_S_) main_v10 main_c_3
  let main_v12 : IVec S_ 1 := andi main_v8 main_v11
  main_v12
-- ==== Kernel.lean ====
abbrev S4x2048x4096 : Shape := ⟨3, ![4, 2048, 4096]⟩
abbrev S16384x4096 : Shape := ⟨2, ![16384, 4096]⟩
abbrev S1048576 : Shape := ⟨1, ![1048576]⟩
abbrev S16384x64 : Shape := ⟨2, ![16384, 64]⟩
abbrev S128x4096 : Shape := ⟨2, ![128, 4096]⟩
abbrev S128x64 : Shape := ⟨2, ![128, 64]⟩
abbrev S128x64x1 : Shape := ⟨3, ![128, 64, 1]⟩
abbrev S128x64x64 : Shape := ⟨3, ![128, 64, 64]⟩
abbrev S8192x4096 : Shape := ⟨2, ![8192, 4096]⟩
abbrev S8192x16384 : Shape := ⟨2, ![8192, 16384]⟩
abbrev S1024x4096 : Shape := ⟨2, ![1024, 4096]⟩
abbrev S512x4096 : Shape := ⟨2, ![512, 4096]⟩
abbrev S1024x512 : Shape := ⟨2, ![1024, 512]⟩
abbrev S4x2048x16384 : Shape := ⟨3, ![4, 2048, 16384]⟩

abbrev nBuf : Space → Nat
  | .hbm => 9
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S1048576, .f32⟩
  | .hbm, ⟨3, _⟩ => ⟨S16384x64, .f32⟩
  | .hbm, ⟨4, _⟩ => ⟨S16384x4096, .bf16⟩
  | .hbm, ⟨5, _⟩ => ⟨S4x2048x4096, .bf16⟩
  | .hbm, ⟨6, _⟩ => ⟨S8192x4096, .bf16⟩
  | .hbm, ⟨7, _⟩ => ⟨S8192x16384, .f32⟩
  | .hbm, ⟨8, _⟩ => ⟨S4x2048x16384, .f32⟩
  | .local _ .vmem, ⟨0, _⟩ => ⟨S128x4096, .i32⟩
  | .local _ .vmem, ⟨1, _⟩ => ⟨S128x4096, .i32⟩
  | .local _ .vmem, ⟨2, _⟩ => ⟨S128x64, .f32⟩
  | .local _ .vmem, ⟨3, _⟩ => ⟨S128x64, .f32⟩
  | .local _ .vmem, ⟨4, _⟩ => ⟨S128x4096, .bf16⟩
  | .local _ .vmem, ⟨5, _⟩ => ⟨S128x4096, .bf16⟩
  | .local _ .vmem, ⟨6, _⟩ => ⟨S1024x4096, .bf16⟩
  | .local _ .vmem, ⟨7, _⟩ => ⟨S1024x4096, .bf16⟩
  | .local _ .vmem, ⟨8, _⟩ => ⟨S512x4096, .bf16⟩
  | .local _ .vmem, ⟨9, _⟩ => ⟨S512x4096, .bf16⟩
  | .local _ .vmem, ⟨10, _⟩ => ⟨S1024x512, .f32⟩
  | .local _ .vmem, ⟨11, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S1048576_S16384x64 : S1048576.ShapeCasts S16384x64
  inb_S128x4096_S128x4096_0_0 : ∀ a, (![0, 0] : Fin 2 → Nat) a + S128x4096.size a ≤ S128x4096.size a
  h_S128x4096 : 0 < S128x4096.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S128x64_S128x64x1 : S128x64.ShapeCasts S128x64x1
  shapeCasts_S128x64x1_S128x64x1 : S128x64x1.ShapeCasts S128x64x1
  broadcasts_S128x64x1_S128x64x64 : S128x64x1.Broadcasts S128x64x64
  shapeCasts_S128x64x64_S128x4096 : S128x64x64.ShapeCasts S128x4096
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  shapeCasts_S4x2048x4096_S8192x4096 : S4x2048x4096.ShapeCasts S8192x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x512_S1024x512_0_0 : ∀ a, (![0, 0] : Fin 2 → Nat) a + S1024x512.size a ≤ S1024x512.size a
  h_S1024x512 : 0 < S1024x512.numel
  shapeCasts_S8192x16384_S4x2048x16384 : S8192x16384.ShapeCasts S4x2048x16384
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .i32 = 32 ∨ (Rect.block (s := S16384x4096) S128x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S16384x64.size a
  hwx0_1 : ∀ i : grid0.Coords, EltTy.bits .f32 = 32 ∨ (Rect.block (s := S16384x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S16384x4096.size a
  hwx0_2 : ∀ i : grid0.Coords, EltTy.bits .bf16 = 32 ∨ (Rect.block (s := S16384x4096) S128x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S16384x4096.size a
  hwx1_1 : ∀ i : grid1.Coords, EltTy.bits .bf16 = 32 ∨ (Rect.block (s := S16384x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x16384.size a
  hwx1_2 : ∀ i : grid1.Coords, EltTy.bits .f32 = 32 ∨ (Rect.block (s := S8192x16384) S1024x512.size (cc1_transform_2 i) (hinb1_2 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S1048576 : Shape := ⟨1, ![1048576]⟩
abbrev S16 : Shape := ⟨1, ![16]⟩
abbrev S_ : Shape := ⟨0, ![]⟩
abbrev S16384x4096x1 : Shape := ⟨3, ![16384, 4096, 1]⟩
abbrev S1048576x64 : Shape := ⟨2, ![1048576, 64]⟩
abbrev S1048576x1 : Shape := ⟨2, ![1048576, 1]⟩
abbrev S4x2048x16384 : Shape := ⟨3, ![4, 2048, 16384]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S1048576, .f32⟩
  | .hbm, ⟨3, _⟩ => ⟨S16, .f32⟩
  | .hbm, ⟨4, _⟩ => ⟨S_, .i32⟩
  | .hbm, ⟨5, _⟩ => ⟨S16384x4096, .i32⟩
  | .hbm, ⟨6, _⟩ => ⟨S16384x4096, .i1⟩
  | .hbm, ⟨7, _⟩ => ⟨S_, .i32⟩
  | .hbm, ⟨8, _⟩ => ⟨S16384x4096, .i32⟩
  | .hbm, ⟨9, _⟩ => ⟨S16384x4096, .i32⟩
  | .hbm, ⟨10, _⟩ => ⟨S16384x4096, .i32⟩
  | .hbm, ⟨11, _⟩ => ⟨S16384x4096x1, .i32⟩
  | .hbm, ⟨12, _⟩ => ⟨S16384x4096, .f32⟩
  | .hbm, ⟨13, _⟩ => ⟨S1048576x64, .f32⟩
  | .hbm, ⟨14, _⟩ => ⟨S1048576x1, .f32⟩
  | .hbm, ⟨15, _⟩ => ⟨S1048576x64, .f32⟩
  | .hbm, ⟨16, _⟩ => ⟨S1048576x64, .f32⟩
  | .hbm, ⟨17, _⟩ => ⟨S16384x4096, .f32⟩
  | .hbm, ⟨18, _⟩ => ⟨S16384x4096, .bf16⟩
  | .hbm, ⟨19, _⟩ => ⟨S16384x4096, .f32⟩
  | .hbm, ⟨20, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S16384x4096_S16384x4096x1_0_1 : S16384x4096.BroadcastsInDim S16384x4096x1 (![0, 1] : Fin 2 → Fin S16384x4096x1.rank)
  shapeCasts_S16384x4096_S1048576x64 : S16384x4096.ShapeCasts S1048576x64
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)
  shapeCasts_S1048576x64_S16384x4096 : S1048576x64.ShapeCasts S16384x4096
  bitsLt_bf16_f32 : FTy.bits .bf16 < FTy.bits .f32
  gather_S16_S16384x4096x1_S16384x4096_n_0_n_n_0_2_1_wf : GatherDims.WF S16 S16384x4096x1 S16384x4096 [] [0] [] [0] [] 2 ![1]
  dot_S4x2048x4096_S16384x4096_S4x2048x16384_2_1_01_0_n_n_wf : DotDims.WF S4x2048x4096 S16384x4096 S4x2048x16384 [2] [1] [0, 1] [0] [] []

variable [Facts₀]

def gather_S16_S16384x4096x1_S16384x4096_n_0_n_n_0_2_1 : GatherDims S16 S16384x4096x1 S16384x4096 where
  offsetDims := []
  collapsedSliceDims := [0]
  operandBatchingDims := []
  startIndicesBatchingDims := []
  startIndexMap := [0]
  indexVectorDim := 2
  sliceSizes := ![1]
  wf := gather_S16_S16384x4096x1_S16384x4096_n_0_n_n_0_2_1_wf
def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Codebook.lean ====
/-
  The NF4 codebook at the level of one 32-bit code word.

  The sixteen levels are the f32 words `word n`, n = 0 … 15. A code word `q` read as a signed integer and clamped
  into 0 … 15 names the level `level q`. Two programs reach that level differently:

  * a clip `min 15 (max 0 q)` followed by a four-level tree of selects on the bits 1, 2, 4, 8 of the clipped word
    (`tree`): the clip IS the clamped position (`clip_eq`), and on each of the sixteen positions the tree picks that
    position's word (`tree_ofNat`), so `tree (clip q) = level q` for every `q` whatever its sign;
  * a table lookup that first adds 16 to a negative word: on a word that is not negative the added branch is never taken
    (`wrap_of_nonneg`).
-/
import Idealize.ShloMosaic.PureOps.Ideal
import Idealize.ShloMosaic.Lib.ValueIdx

noncomputable section

namespace Cert.NF4

open Idealize.ShloMosaic

/-- The sixteen quantization levels as f32 words, in increasing order from -1.0 to 1.0 (position 7 is 0.0). -/
def word : Fin 16 → BitVec 32 :=
  ![0xBF800000#32, 0xBF3239B1#32, 0xBF066B30#32, 0xBECA32A0#32, 0xBE91A24D#32, 0xBE3D353F#32, 0xBDBA7871#32, 0x00000000#32,
    0x3DA2FAFF#32, 0x3E24CAE3#32, 0x3E7C04DD#32, 0x3EAD033A#32, 0x3EE1A4B8#32, 0x3F1007AB#32, 0x3F3913B3#32, 0x3F800000#32]

/-- A code word's table position: its signed value clamped into 0 … 15. -/
def pos (q : BitVec 32) : Fin 16 := ⟨min q.toInt.toNat 15, by omega⟩

/-- The level a code word names, as an extended real. -/
def level (q : BitVec 32) : EReal := Ideal.ofBits .f32 (word (pos q))

/-- The clip of a code word into 0 … 15 by a signed maximum with 0 and a signed minimum with 15. -/
def clip (q : BitVec 32) : BitVec 32 := IntOp.minsi 15#32 (IntOp.maxsi 0#32 q)

/-- Bit test: whether `c` has a bit of the mask `k` set. -/
def bit (c k : BitVec 32) : BitVec 1 := IntOp.cmpi .ne (IntOp.andi c k) 0#32

/-- The binary select tree on the four low bits of `c`: bit 1 chooses inside a pair of neighbouring levels, bit 2 between
    pairs, bit 4 between quadruples, bit 8 between the lower and the upper half of the table. -/
def tree (c : BitVec 32) : EReal :=
  Scalar.select (bit c 8#32)
    (Scalar.select (bit c 4#32)
      (Scalar.select (bit c 2#32)
        (Scalar.select (bit c 1#32) (Ideal.ofBits .f32 0x3F800000#32) (Ideal.ofBits .f32 0x3F3913B3#32))
        (Scalar.select (bit c 1#32) (Ideal.ofBits .f32 0x3F1007AB#32) (Ideal.ofBits .f32 0x3EE1A4B8#32)))
      (Scalar.select (bit c 2#32)
        (Scalar.select (bit c 1#32) (Ideal.ofBits .f32 0x3EAD033A#32) (Ideal.ofBits .f32 0x3E7C04DD#32))
        (Scalar.select (bit c 1#32) (Ideal.ofBits .f32 0x3E24CAE3#32) (Ideal.ofBits .f32 0x3DA2FAFF#32))))
    (Scalar.select (bit c 4#32)
      (Scalar.select (bit c 2#32)
        (Scalar.select (bit c 1#32) (Ideal.ofBits .f32 0x00000000#32) (Ideal.ofBits .f32 0xBDBA7871#32))
        (Scalar.select (bit c 1#32) (Ideal.ofBits .f32 0xBE3D353F#32) (Ideal.ofBits .f32 0xBE91A24D#32)))
      (Scalar.select (bit c 2#32)
        (Scalar.select (bit c 1#32) (Ideal.ofBits .f32 0xBECA32A0#32) (Ideal.ofBits .f32 0xBF066B30#32))
        (Scalar.select (bit c 1#32) (Ideal.ofBits .f32 0xBF3239B1#32) (Ideal.ofBits .f32 0xBF800000#32))))

/-- The clip is the clamped position, as a word: below zero it is 0, above fifteen it is 15, in between the word itself. -/
theorem clip_eq (q : BitVec 32) : clip q = BitVec.ofNat 32 (pos q).val := by
  unfold clip IntOp.minsi IntOp.maxsi pos
  have h0 : (0#32 : BitVec 32).toInt = 0 := by decide
  have h15 : (15#32 : BitVec 32).toInt = 15 := by decide
  have hq := BitVec.toInt_eq_toNat_cond q
  have hlt := q.isLt
  by_cases hneg : q.toInt < 0
  · have e1 : q.slt 0#32 = true := by rw [BitVec.slt]; simp [h0, hneg]
    rw [if_pos e1]
    have e2 : (15#32 : BitVec 32).slt 0#32 = false := by decide
    rw [e2]
    simp only [Bool.false_eq_true, if_false]
    have : q.toInt.toNat = 0 := by omega
    simp [this]
  · have e1 : q.slt 0#32 = false := by rw [BitVec.slt]; simp [h0, hneg]
    rw [e1]
    simp only [Bool.false_eq_true, if_false]
    have hnat : q.toInt = q.toNat := by
      rw [hq]; split
      · rfl
      · rename_i h; rw [hq] at hneg; rw [if_neg h] at hneg; omega
    by_cases hbig : 15 < q.toInt
    · have e2 : (15#32 : BitVec 32).slt q = true := by rw [BitVec.slt]; simp [h15, hbig]
      rw [if_pos e2]
      have : min q.toInt.toNat 15 = 15 := by omega
      simp [this]
    · have e2 : (15#32 : BitVec 32).slt q = false := by rw [BitVec.slt]; simp [h15, hbig]
      rw [e2]
      simp only [Bool.false_eq_true, if_false]
      have : min q.toInt.toNat 15 = q.toNat := by omega
      rw [this]
      simp

/-- On each of the sixteen positions the tree of selects picks that position's level. -/
theorem tree_ofNat (n : Fin 16) : tree (BitVec.ofNat 32 n.val) = Ideal.ofBits .f32 (word n) := by
  fin_cases n <;> rfl

/-- The clip followed by the tree of selects names the clamped position's level, for every code word. -/
theorem tree_clip (q : BitVec 32) : tree (clip q) = level q := by
  rw [clip_eq, tree_ofNat]; rfl

/-- A word that is not negative (its signed comparison `≥ 0` holds) is not sent through the "add 16 to a negative index"
    branch of the table lookup. -/
theorem wrap_of_nonneg {q : BitVec 32} (hq : IntOp.cmpi .sge q 0#32 = 1#1) :
    Scalar.select (IntOp.cmpi .slt q 0#32) (IntOp.addi q 16#32) q = q := by
  have h0 : (0#32 : BitVec 32).toInt = 0 := by decide
  have e : IntOp.cmpi .sge q 0#32 = BitVec.ofBool ((0#32 : BitVec 32).sle q) := rfl
  rw [e] at hq
  have hle : (0#32 : BitVec 32).sle q = true := by
    cases h : (0#32 : BitVec 32).sle q
    · rw [h] at hq; exact absurd hq (by decide)
    · rfl
  have hnn : 0 ≤ q.toInt := by
    rw [BitVec.sle] at hle; simpa [h0] using hle
  have hs : q.slt 0#32 = false := by
    rw [BitVec.slt]; simp [h0]; omega
  have e2 : IntOp.cmpi .slt q 0#32 = BitVec.ofBool (q.slt 0#32) := rfl
  rw [e2, hs]
  rfl

end Cert.NF4

end
-- ==== Proof.Dequant.lean ====
/-
  The first launch: what the dequantization kernel leaves in its output array.

  The kernel runs on 128 points; point `t` works on rows t·128 … t·128 + 127 of the code words [16384, 4096], of the
  scales as a [16384, 64] matrix, and of the output [16384, 4096]. Its body clips each code word into 0 … 15, picks the
  level by a tree of selects on the clipped word's bits, and multiplies by the scale of the entry's block of 64 columns
  (the scale block is laid out [128, 64] → [128, 64, 1] → [128, 64, 64] → [128, 4096], so column k reads scale column
  k / 64). The clip and the tree together are the level the code word names (`NF4.tree_clip`), whatever the word's sign.

  So what point `t` writes back is block `t` of ONE function of the two input arrays,

      deq q s (o, k) = level (q (o, k)) · s (o, k / 64),

  and since the 128 blocks tile the array, the array ends holding `deq` of the arrays the launch found (`final`).
-/
import proofs.«404746_j53068615909971_3_alg».proof.Proof.Gen.KernelIdeal.Frame
import proofs.«404746_j53068615909971_3_alg».proof.Proof.Codebook
import Idealize.ShloMosaic.Lib.Pipeline.Value
import Idealize.ShloMosaic.Lib.ValueIdx

set_option maxRecDepth 16384

noncomputable section

namespace Cert.KernelIdeal.Dequant

open Cert.KernelIdeal Cert.KernelIdeal.Gen
open Idealize.ShloMosaic Idealize.ShloMosaic.ValueIdx Idealize.ShloMosaic.TcCoe Idealize.SL.Sem
open Idealize.ShloMosaic.Pipeline (Dat Cfg Window)

/-- The dequantized matrix as a function of the code words and of the scales laid out one row of 64 per weight row. -/
def deq (q : Vec Ideal S16384x4096 .i32) (s : Vec Ideal S16384x64 .f32) : Vec Ideal S16384x4096 .bf16 :=
  fun i => NF4.level (q i) * s (ix2 (n0 := 16384) (n1 := 64) (i 0) ⟨(i 1).val / 64, by have := idx2_lt1 i; omega⟩)

theorem deq_apply (q : Vec Ideal S16384x4096 .i32) (s : Vec Ideal S16384x64 .f32) (o : Fin 16384) (k : Fin 4096) :
    deq q s (ix2 o k) = NF4.level (q (ix2 o k)) * s (ix2 o (⟨k.val / 64, by omega⟩ : Fin 64)) := rfl

/-- The body's stored value at row `r`, column `k` of its block: the level of the code word there times the scale at
    row `r`, column `k / 64` of the scale block. -/
theorem pay_apply (x0 : Vec Ideal S128x4096 .i32) (x1 : Vec Ideal S128x64 .f32) (r : Fin 128) (k : Fin 4096) :
    k0_pay1 (k0_pay3 x1) (k0_pay4 x0) (k0_pay5 x0) (k0_pay6 x0) (k0_pay7 x0) (k0_pay8 x0) (k0_pay9 x0) (k0_pay10 x0) (k0_pay11 x0)
        (Scalar.ofBits .f32 0x3E24CAE3#32) (Scalar.ofBits .f32 0x3DA2FAFF#32) (ix2 r k)
      = NF4.level (x0 (ix2 r k)) * x1 (ix2 r (⟨k.val / 64, by omega⟩ : Fin 64)) := by
  rw [← NF4.tree_clip]
  have hg : k.val / 64 < 64 := by omega
  have hl : k.val % 64 < 64 := Nat.mod_lt _ (by decide)
  show NF4.tree (NF4.clip (x0 (ix2 r k)))
      * (shapeCast S128x4096 (broadcastTo S128x64x64 (shapeCast S128x64x1 (shapeCast S128x64x1 (shapeCast S128x64 x1 _) _) _) _) _) (ix2 r k) = _
  refine congrArg (NF4.tree (NF4.clip (x0 (ix2 r k))) * ·) ?_
  rw [shapeCast_apply _ _ (ix2 r k) (ix3 r (⟨k.val / 64, hg⟩ : Fin 64) (⟨k.val % 64, hl⟩ : Fin 64)) (by
    rw [Shape.rowMajor_val_three, Shape.rowMajor_val_two]
    show (r.val * 64 + k.val / 64) * 64 + k.val % 64 = r.val * 4096 + k.val
    omega)]
  rw [broadcastTo_apply _ _ (ix3 r (⟨k.val / 64, hg⟩ : Fin 64) (⟨k.val % 64, hl⟩ : Fin 64)) (ix3 r (⟨k.val / 64, hg⟩ : Fin 64) (0 : Fin 1)) (by
    intro ax
    match ax with
    | ⟨0, _⟩ => rfl
    | ⟨1, _⟩ => rfl
    | ⟨2, _⟩ => rfl)]
  rw [shapeCast_self]
  rw [shapeCast_apply _ _ (ix3 r (⟨k.val / 64, hg⟩ : Fin 64) (0 : Fin 1)) (ix2 r (⟨k.val / 64, hg⟩ : Fin 64)) (by
    rw [Shape.rowMajor_val_three, Shape.rowMajor_val_two]
    show r.val * 64 + k.val / 64 = (r.val * 64 + k.val / 64) * 1 + 0
    omega)]
  rw [shapeCast_self]

section Region
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` every window sits at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 128 := lt_of_lt_of_eq t.isLt N_0

/-- WHAT POINT `t` WRITES BACK is block `t` of `deq` of the two input arrays as the launch finds them. -/
theorem flushed_eq (c : Dev nD) (t : Fin cfg0.N) :
    (dat0 V c).flushed 2 t = ((cfg0.win 2).blk t).view.read (Elt Ideal) (deq (V c main_arg1) (V c main_v0)) := by
  show (cfg0.win 2).cut (grid0.coords t) ((dat0 V c).after 2 t) = _
  rw [after0_2]
  unfold out0_2
  rw [View.canon_unit_zero hz]
  simp only [View.ld_unit_zero (S := S128x4096) hz, View.ld_unit_zero (S := S128x64) hz]
  obtain ⟨e0, e1, e2, e3, e4, e5⟩ := idx_facts t
  have ht := t_lt t
  funext j
  obtain ⟨r, k, rfl⟩ : ∃ (r : Fin 128) (k : Fin 4096), j = ix2 r k := ⟨j 0, j 1, eq_ix2 j⟩
  refine (pay_apply (iblk0 V c 0 t) (iblk0 V c 1 t) r k).trans ?_
  have hR : t.val * 128 + r.val < 16384 := by omega
  have hg : k.val / 64 < 64 := by omega
  have h0 : ((cfg0.win 0).blk t).view.emb (ix2 r k) = ix2 (⟨t.val * 128 + r.val, hR⟩ : Fin 16384) k := by
    funext a; apply Fin.ext
    match a with
    | ⟨0, _⟩ => show win0_0.index t (0 : Fin 2) * 128 + 1 * r.val = t.val * 128 + r.val; omega
    | ⟨1, _⟩ => show win0_0.index t (1 : Fin 2) * 4096 + 1 * k.val = k.val; omega
  have h1 : ((cfg0.win 1).blk t).view.emb (ix2 r (⟨k.val / 64, hg⟩ : Fin 64)) = ix2 (⟨t.val * 128 + r.val, hR⟩ : Fin 16384) (⟨k.val / 64, hg⟩ : Fin 64) := by
    funext a; apply Fin.ext
    match a with
    | ⟨0, _⟩ => show win0_1.index t (0 : Fin 2) * 128 + 1 * r.val = t.val * 128 + r.val; omega
    | ⟨1, _⟩ => show win0_1.index t (1 : Fin 2) * 64 + 1 * (k.val / 64) = k.val / 64; omega
  have h2 : ((cfg0.win 2).blk t).view.emb (ix2 r k) = ix2 (⟨t.val * 128 + r.val, hR⟩ : Fin 16384) k := by
    funext a; apply Fin.ext
    match a with
    | ⟨0, _⟩ => show win0_2.index t (0 : Fin 2) * 128 + 1 * r.val = t.val * 128 + r.val; omega
    | ⟨1, _⟩ => show win0_2.index t (1 : Fin 2) * 4096 + 1 * k.val = k.val; omega
  show NF4.level (V c main_arg1 (((cfg0.win 0).blk t).view.emb (ix2 r k)))
      * V c main_v0 (((cfg0.win 1).blk t).view.emb (ix2 r (⟨k.val / 64, hg⟩ : Fin 64)))
    = deq (V c main_arg1) (V c main_v0) (((cfg0.win 2).blk t).view.emb (ix2 r k))
  rw [h0, h1, h2, deq_apply]

/-- An index of the array is in point `t`'s block iff each coordinate is in the block's range on its axis. -/
theorem mem_blk (t : Fin cfg0.N) (i : S16384x4096.Idx) :
    i ∈ ((cfg0.win 2).blk t).view.set ↔ ∀ a : Fin 2, win0_2.index t a * S128x4096.size a ≤ (i a).val ∧ (i a).val < win0_2.index t a * S128x4096.size a + S128x4096.size a := by
  show i ∈ ((View.whole main_v1).slice (win0_2.rect t)).set ↔ _
  rw [View.set_slice_whole, Rect.mem_set_unit]
  exact Iff.rfl

/-- Every index of the array is in the block of the point its row belongs to: row `o` is point `o / 128`'s. -/
theorem cover (i : S16384x4096.Idx) :
    ∃ t : Fin cfg0.N, (cfg0.win 2).flush t = true ∧ i ∈ ((cfg0.win 2).blk t).view.set := by
  have hi0 : (i 0).val < 16384 := idx2_lt0 i
  have hi1 : (i 1).val < 4096 := idx2_lt1 i
  have hN : (i 0).val / 128 < cfg0.N := by rw [show cfg0.N = 128 from N_0]; omega
  obtain ⟨e0, e1, e2, e3, e4, e5⟩ := idx_facts ⟨(i 0).val / 128, hN⟩
  refine ⟨⟨(i 0).val / 128, hN⟩, flush0_2 _, ?_⟩
  rw [mem_blk]
  intro a
  match a with
  | ⟨0, _⟩ =>
    show win0_2.index ⟨(i 0).val / 128, hN⟩ (0 : Fin 2) * 128 ≤ (i 0).val ∧ (i 0).val < win0_2.index ⟨(i 0).val / 128, hN⟩ (0 : Fin 2) * 128 + 128
    rw [e4]
    show (i 0).val / 128 * 128 ≤ (i 0).val ∧ (i 0).val < (i 0).val / 128 * 128 + 128
    omega
  | ⟨1, _⟩ =>
    show win0_2.index ⟨(i 0).val / 128, hN⟩ (1 : Fin 2) * 4096 ≤ (i 1).val ∧ (i 1).val < win0_2.index ⟨(i 0).val / 128, hN⟩ (1 : Fin 2) * 4096 + 4096
    rw [e5]
    omega

/-- THE OUTPUT ARRAY after the launch: `deq` of the two input arrays as the launch found them. -/
theorem final (c : Dev nD) : (dat0 V c).arrAt 2 cfg0.N = deq (V c main_arg1) (V c main_v0) :=
  (dat0 V c).arrAt_eq_of_cover 2 (deq (V c main_arg1) (V c main_v0)) (fun t _ => flushed_eq V c t) (cover)

end Region

end Cert.KernelIdeal.Dequant

end
-- ==== Proof.LibDotLastAxis.lean ====
/-
  Two matrix products read at an index, at the ideal values, for operands that both keep the contracted axis LAST
  (a product of a matrix with the transpose of another, as a linear layer `x · Wᵀ` is written):

  * the matrix unit's product of an [m, k] block with an [n, k] block into the zero accumulator, at (a, b), is
    `∑ c, A (a, c) · B (b, c)`;
  * the host's contraction of a stack [p, q, k] with an [n, k] matrix, at (b, s, o), is `∑ c, A (b, s, c) · B (o, c)`.

  Both are stated over the literal record of dimension numbers with its well-formedness fact `w` a variable, so they apply
  to a program's own record whatever name it gives that fact. No rounding and no order of summation is left at the ideal
  values: each is one finite sum over the contracted coordinate.
-/
import Idealize.ShloMosaic.PureOps.Ideal.Laws
import Idealize.ShloMosaic.Lib.ValueIdx

noncomputable section

open scoped BigOperators

namespace Idealize.ShloMosaic.LibDotLastAxis

open Idealize.ShloMosaic Idealize.ShloMosaic.ValueIdx

variable {m n k : Nat}

/-- The matrix unit's product of two blocks that both carry the contracted axis last, accumulated from zero: entry
    (a, b) is the sum over the contracted coordinate `c` of `A (a, c) · B (b, c)`. -/
theorem matmul_zero_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

variable {p q : Nat}

/-- The host's contraction of a stack of row vectors [p, q, k] with a matrix [n, k] over their last axes: entry
    (b, s, o) is the sum over the contracted coordinate `c` of `A (b, s, c) · B (o, c)`. -/
theorem dotGeneral_stack_apply {φ₁ φ₂ : FTy}
    (w : DotDims.WF ⟨3, ![p, q, k]⟩ ⟨2, ![n, k]⟩ ⟨3, ![p, q, n]⟩ [2] [1] [0, 1] [0] [] [])
    (prec : Option ContractPrecision) (A : FVec Ideal ⟨3, ![p, q, k]⟩ φ₁) (B : FVec Ideal ⟨2, ![n, k]⟩ φ₂)
    (b : Fin p) (s : Fin q) (o : Fin n) :
    Host.dotGeneral (⟨[2], [1], [0, 1], [0], [], [], w⟩ : DotDims ⟨3, ![p, q, k]⟩ ⟨2, ![n, k]⟩ ⟨3, ![p, q, n]⟩) prec A B (ix3 b s o)
      = ∑ c : Fin k, A (ix3 b s c) * B (ix2 o c) := by
  show FloatOps.dotGeneral _ prec _ A B (ix3 b s o) = _
  rw [Ideal.dotGeneral_apply,
    ← Equiv.sum_comp (contrEquiv1 (⟨[2], [1], [0, 1], [0], [], [], w⟩ : DotDims ⟨3, ![p, q, k]⟩ ⟨2, ![n, k]⟩ ⟨3, ![p, q, n]⟩) k rfl rfl).symm]
  refine Finset.sum_congr rfl fun c _ => ?_
  have c3 := contrEquiv1_symm_val
    (⟨[2], [1], [0, 1], [0], [], [], w⟩ : DotDims ⟨3, ![p, q, k]⟩ ⟨2, ![n, k]⟩ ⟨3, ![p, q, n]⟩) k rfl rfl c
  have l3 : (⟨[2], [1], [0, 1], [0], [], [], w⟩ : DotDims ⟨3, ![p, q, k]⟩ ⟨2, ![n, k]⟩ ⟨3, ![p, q, n]⟩).lhsIdx (ix3 b s o)
      ((contrEquiv1 _ k rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![p, q, k]⟩ ⟨2, ![n, k]⟩ ⟨3, ![p, q, n]⟩).rhsIdx (ix3 b s o)
      ((contrEquiv1 _ k rfl rfl).symm c) = ix2 o c := by
    funext ax; apply Fin.ext
    match ax with
    | ⟨0, _⟩ => simp [DotDims.rhsIdx]; rfl
    | ⟨1, _⟩ => simp [DotDims.rhsIdx]; exact c3
  rw [l3, r3]

end Idealize.ShloMosaic.LibDotLastAxis

end
-- ==== Proof.MatProd.lean ====
/-
  The second launch: what the matrix-product kernel leaves in its output array.

  The kernel runs on 8 × 32 points; point `t` is block row `t / 32` of the input [8192, 4096] (1024 rows), block row
  `t mod 32` of the weights [16384, 4096] (512 rows), and block (t / 32, t mod 32) of the output [8192, 16384]. Its body
  multiplies the two blocks on the matrix unit, contracting their last axes, from a zero accumulator: at the ideal values
  entry (r, o) of the block is `∑ k, x (r, k) · w (o, k)`.

  So what point `t` writes back is block `t` of ONE function of the two input arrays,

      mm x w (m, o) = ∑ k, x (m, k) · w (o, k),

  and since the 256 blocks tile the array, the array ends holding `mm` of the arrays the launch found (`final`).
-/
import proofs.«404746_j53068615909971_3_alg».proof.Proof.Gen.KernelIdeal.Frame
import proofs.«404746_j53068615909971_3_alg».proof.Proof.LibDotLastAxis
import Idealize.ShloMosaic.Lib.Pipeline.Value
import Idealize.ShloMosaic.Lib.ValueIdx

set_option maxRecDepth 16384

noncomputable section

open scoped BigOperators

namespace Cert.KernelIdeal.MatProd

open Cert.KernelIdeal Cert.KernelIdeal.Gen
open Idealize.ShloMosaic Idealize.ShloMosaic.ValueIdx Idealize.ShloMosaic.TcCoe Idealize.SL.Sem
open Idealize.ShloMosaic.Pipeline (Dat Cfg Window)

/-- The product of the rows of `x` with the rows of `w`. -/
def mm (x : Vec Ideal S8192x4096 .bf16) (w : Vec Ideal S16384x4096 .bf16) : Vec Ideal S8192x16384 .f32 :=
  fun i => ∑ k : Fin 4096, x (ix2 (n0 := 8192) (n1 := 4096) (i 0) k) * w (ix2 (n0 := 16384) (n1 := 4096) (i 1) k)

theorem mm_apply (x : Vec Ideal S8192x4096 .bf16) (w : Vec Ideal S16384x4096 .bf16) (a : Fin 8192) (o : Fin 16384) :
    mm x w (ix2 a o) = ∑ k : Fin 4096, x (ix2 a k) * w (ix2 o k) := rfl

/-- The body's stored value at (r, o) of its block: the inner product of row `r` of the input block with row `o` of the
    weight block. -/
theorem pay_apply (x0 : FVec Ideal S1024x4096 .bf16) (x1 : FVec Ideal S512x4096 .bf16) (r : Fin 1024) (o : Fin 512) :
    k1_pay1 (F := Ideal) x0 x1 (ix2 r o) = ∑ k : Fin 4096, x0 (ix2 r k) * x1 (ix2 o k) := by
  have hrec : dot_S1024x4096_S512x4096_S1024x512_1_1_0_0_n_n
      = (⟨[1], [1], [0], [0], [], [], Facts₀.dot_S1024x4096_S512x4096_S1024x512_1_1_0_0_n_n_wf⟩ :
          DotDims ⟨2, ![1024, 4096]⟩ ⟨2, ![512, 4096]⟩ ⟨2, ![1024, 512]⟩) := rfl
  show FloatOps.matmul dot_S1024x4096_S512x4096_S1024x512_1_1_0_0_n_n none
      (shapeCast S1024x4096 x0 Facts₀.shapeCasts_S1024x4096_S1024x4096 : FVec Ideal S1024x4096 .bf16)
      (shapeCast S512x4096 x1 Facts₀.shapeCasts_S512x4096_S512x4096 : FVec Ideal S512x4096 .bf16)
      (constant S1024x512 .f32 0x00000000#32) (ix2 r o) = _
  rw [shapeCast_self, shapeCast_self, hrec]
  exact LibDotLastAxis.matmul_zero_apply (φ₁ := .bf16) (φ₂ := .bf16) _ none x0 x1 r o

section Region
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` the input window sits at block row `t / 32`, the weight window at
    block row `t mod 32`, the output window at block (t / 32, t mod 32). -/
theorem idx_facts : ∀ t : Fin cfg1.N, win1_0.index t (0 : Fin 2) = t.val / 32 ∧ win1_0.index t (1 : Fin 2) = 0
    ∧ win1_1.index t (0 : Fin 2) = t.val % 32 ∧ win1_1.index t (1 : Fin 2) = 0
    ∧ win1_2.index t (0 : Fin 2) = t.val / 32 ∧ win1_2.index t (1 : Fin 2) = t.val % 32 :=
  (by decide +kernel : ∀ t : Fin grid1.N, _)

theorem t_lt (t : Fin cfg1.N) : t.val < 256 := lt_of_lt_of_eq t.isLt N_1

/-- WHAT POINT `t` WRITES BACK is block `t` of `mm` of the two input arrays as the launch finds them. -/
theorem flushed_eq (c : Dev nD) (t : Fin cfg1.N) :
    (dat1 V c).flushed 2 t = ((cfg1.win 2).blk t).view.read (Elt Ideal) (mm (V c main_v3) (V c main_v1)) := by
  show (cfg1.win 2).cut (grid1.coords t) ((dat1 V c).after 2 t) = _
  rw [after1_2]
  unfold out1_2
  rw [View.canon_unit_zero hz]
  simp only [View.ld_unit_zero (S := S1024x4096) hz, View.ld_unit_zero (S := S512x4096) hz]
  obtain ⟨e0, e1, e2, e3, e4, e5⟩ := idx_facts t
  have ht := t_lt t
  funext j
  obtain ⟨r, o, rfl⟩ : ∃ (r : Fin 1024) (o : Fin 512), j = ix2 r o := ⟨j 0, j 1, eq_ix2 j⟩
  refine (pay_apply (iblk1 V c 0 t) (iblk1 V c 1 t) r o).trans ?_
  have hR : t.val / 32 * 1024 + r.val < 8192 := by omega
  have hO : t.val % 32 * 512 + o.val < 16384 := by omega
  have h0 : ∀ k : Fin 4096, ((cfg1.win 0).blk t).view.emb (ix2 r k) = ix2 (⟨t.val / 32 * 1024 + r.val, hR⟩ : Fin 8192) k := by
    intro k
    funext a; apply Fin.ext
    match a with
    | ⟨0, _⟩ => show win1_0.index t (0 : Fin 2) * 1024 + 1 * r.val = t.val / 32 * 1024 + r.val; omega
    | ⟨1, _⟩ => show win1_0.index t (1 : Fin 2) * 4096 + 1 * k.val = k.val; omega
  have h1 : ∀ k : Fin 4096, ((cfg1.win 1).blk t).view.emb (ix2 o k) = ix2 (⟨t.val % 32 * 512 + o.val, hO⟩ : Fin 16384) k := by
    intro k
    funext a; apply Fin.ext
    match a with
    | ⟨0, _⟩ => show win1_1.index t (0 : Fin 2) * 512 + 1 * o.val = t.val % 32 * 512 + o.val; omega
    | ⟨1, _⟩ => show win1_1.index t (1 : Fin 2) * 4096 + 1 * k.val = k.val; omega
  have h2 : ((cfg1.win 2).blk t).view.emb (ix2 r o)
      = ix2 (⟨t.val / 32 * 1024 + r.val, hR⟩ : Fin 8192) (⟨t.val % 32 * 512 + o.val, hO⟩ : Fin 16384) := by
    funext a; apply Fin.ext
    match a with
    | ⟨0, _⟩ => show win1_2.index t (0 : Fin 2) * 1024 + 1 * r.val = t.val / 32 * 1024 + r.val; omega
    | ⟨1, _⟩ => show win1_2.index t (1 : Fin 2) * 512 + 1 * o.val = t.val % 32 * 512 + o.val; omega
  refine Eq.trans ?_ (congrArg (mm (V c main_v3) (V c main_v1)) h2).symm
  rw [mm_apply]
  refine Finset.sum_congr rfl fun k _ => ?_
  have a0 : iblk1 V c 0 t (ix2 r k) = V c main_v3 (ix2 (⟨t.val / 32 * 1024 + r.val, hR⟩ : Fin 8192) k) :=
    congrArg (V c main_v3) (h0 k)
  have a1 : iblk1 V c 1 t (ix2 o k) = V c main_v1 (ix2 (⟨t.val % 32 * 512 + o.val, hO⟩ : Fin 16384) k) :=
    congrArg (V c main_v1) (h1 k)
  rw [a0, a1]

/-- An index of the array is in point `t`'s block iff each coordinate is in the block's range on its axis. -/
theorem mem_blk (t : Fin cfg1.N) (i : S8192x16384.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v4).slice (win1_2.rect t)).set ↔ _
  rw [View.set_slice_whole, Rect.mem_set_unit]
  exact Iff.rfl

/-- Every index of the array is in some point's block: entry (m, o) is point `(m / 1024) · 32 + o / 512`'s. -/
theorem cover (i : S8192x16384.Idx) :
    ∃ t : Fin cfg1.N, (cfg1.win 2).flush t = true ∧ i ∈ ((cfg1.win 2).blk t).view.set := by
  have hi0 : (i 0).val < 8192 := idx2_lt0 i
  have hi1 : (i 1).val < 16384 := idx2_lt1 i
  have hN : (i 0).val / 1024 * 32 + (i 1).val / 512 < cfg1.N := by rw [show cfg1.N = 256 from N_1]; omega
  obtain ⟨e0, e1, e2, e3, e4, e5⟩ := idx_facts ⟨(i 0).val / 1024 * 32 + (i 1).val / 512, hN⟩
  refine ⟨⟨(i 0).val / 1024 * 32 + (i 1).val / 512, hN⟩, flush1_2 _, ?_⟩
  rw [mem_blk]
  intro a
  match a with
  | ⟨0, _⟩ =>
    show win1_2.index ⟨(i 0).val / 1024 * 32 + (i 1).val / 512, hN⟩ (0 : Fin 2) * 1024 ≤ (i 0).val
      ∧ (i 0).val < win1_2.index ⟨(i 0).val / 1024 * 32 + (i 1).val / 512, hN⟩ (0 : Fin 2) * 1024 + 1024
    rw [e4]
    show ((i 0).val / 1024 * 32 + (i 1).val / 512) / 32 * 1024 ≤ (i 0).val
      ∧ (i 0).val < ((i 0).val / 1024 * 32 + (i 1).val / 512) / 32 * 1024 + 1024
    omega
  | ⟨1, _⟩ =>
    show win1_2.index ⟨(i 0).val / 1024 * 32 + (i 1).val / 512, hN⟩ (1 : Fin 2) * 512 ≤ (i 1).val
      ∧ (i 1).val < win1_2.index ⟨(i 0).val / 1024 * 32 + (i 1).val / 512, hN⟩ (1 : Fin 2) * 512 + 512
    rw [e5]
    show ((i 0).val / 1024 * 32 + (i 1).val / 512) % 32 * 512 ≤ (i 1).val
      ∧ (i 1).val < ((i 0).val / 1024 * 32 + (i 1).val / 512) % 32 * 512 + 512
    omega

/-- THE OUTPUT ARRAY after the launch: `mm` of the two input arrays as the launch found them. -/
theorem final (c : Dev nD) : (dat1 V c).arrAt 2 cfg1.N = mm (V c main_v3) (V c main_v1) :=
  (dat1 V c).arrAt_eq_of_cover 2 (mm (V c main_v3) (V c main_v1)) (fun t _ => flushed_eq V c t) (cover)

end Region

end Cert.KernelIdeal.MatProd

end
-- ==== Proof.Spec.lean ====
/-
  What both programs compute, as one function of the three argument arrays.

  The code words `q : [16384, 4096]` name NF4 levels; the scales `a : [1048576]` come one per block of 64 consecutive
  weights in row-major order, so the weight at row `o`, column `k` uses scale number `o · 64 + k / 64` (a block never
  straddles a row: 4096 is a multiple of 64). The dequantized weight is `level (q o k) · a (o · 64 + k / 64)`, and the
  output at (b, s, o) is the inner product of the input row `x b s ·` with weight row `o`:

      out b s o = ∑ k, x b s k · (level (q o k) · a (o · 64 + k / 64)).

  Everything is an extended real; the sum is a finite sum in the extended reals and no law beyond the definitions is used
  to compare the two programs with it, so nothing here needs the entries to be finite.
-/
import proofs.«404746_j53068615909971_3_alg».proof.Proof.Codebook
import Idealize.ShloMosaic.Lib.ValueIdx

noncomputable section

open scoped BigOperators

namespace Cert.QuantLinear

open Idealize.ShloMosaic Idealize.ShloMosaic.ValueIdx

/-- The number of the scale that weight (o, k) uses: blocks of 64 along a row, rows in order. -/
def blockOf (o : Fin 16384) (k : Fin 4096) : Fin 1048576 := ⟨o.val * 64 + k.val / 64, by omega⟩

/-- The dequantized weight at row `o`, column `k`. -/
def weight (q : (⟨2, ![16384, 4096]⟩ : Shape).Idx → BitVec 32) (a : (⟨1, ![1048576]⟩ : Shape).Idx → EReal)
    (o : Fin 16384) (k : Fin 4096) : EReal :=
  NF4.level (q (ix2 o k)) * a (ix1 (blockOf o k))

/-- The output at batch `b`, position `s`, feature `o`. -/
def out (x : (⟨3, ![4, 2048, 4096]⟩ : Shape).Idx → EReal) (q : (⟨2, ![16384, 4096]⟩ : Shape).Idx → BitVec 32)
    (a : (⟨1, ![1048576]⟩ : Shape).Idx → EReal) (b : Fin 4) (s : Fin 2048) (o : Fin 16384) : EReal :=
  ∑ k : Fin 4096, x (ix3 b s k) * weight q a o k

/-- The whole output array. -/
def outArr (x : (⟨3, ![4, 2048, 4096]⟩ : Shape).Idx → EReal) (q : (⟨2, ![16384, 4096]⟩ : Shape).Idx → BitVec 32)
    (a : (⟨1, ![1048576]⟩ : Shape).Idx → EReal) : (⟨3, ![4, 2048, 16384]⟩ : Shape).Idx → EReal :=
  fun j => out x q a (j 0) (j 1) (j 2)

theorem outArr_apply (x : (⟨3, ![4, 2048, 4096]⟩ : Shape).Idx → EReal) (q : (⟨2, ![16384, 4096]⟩ : Shape).Idx → BitVec 32)
    (a : (⟨1, ![1048576]⟩ : Shape).Idx → EReal) (b : Fin 4) (s : Fin 2048) (o : Fin 16384) :
    outArr x q a (ix3 b s o) = out x q a b s o := rfl

end Cert.QuantLinear

end
-- ==== Proof.KernelValue.lean ====
/-
  The kernel's result is the specification, for every input.

  Between the launch and the return the buffers are rewritten five times: the scales are regrouped as [16384, 64]; the
  first launch leaves the dequantized matrix `deq` of the code words and the regrouped scales; the input is passed to
  bf16 (the identity at the ideal values) and regrouped as [8192, 4096]; the second launch leaves the product `mm` of the
  regrouped input with the dequantized matrix; and the product is regrouped as [4, 2048, 16384]. Reading the last buffer
  back through these steps, entry (b, s, o) is

      ∑ k, x (b, s, k) · (level (q (o, k)) · a (o · 64 + k / 64)),

  row b · 2048 + s of the regrouped input being row (b, s) of the input, and entry (o, k / 64) of the regrouped scales
  being scale number o · 64 + k / 64. This is the specification's `out`, with no hypothesis on the inputs: the clip in
  the kernel makes its level the clamped position's level at every code word.
-/
import proofs.«404746_j53068615909971_3_alg».proof.Proof.KernelRun
import proofs.«404746_j53068615909971_3_alg».proof.Proof.Dequant
import proofs.«404746_j53068615909971_3_alg».proof.Proof.MatProd
import proofs.«404746_j53068615909971_3_alg».proof.Proof.Spec
import Idealize.ShloMosaic.Lib.StableHlo.Run
import Idealize.ShloMosaic.Lib.Pipeline.Value

set_option maxRecDepth 16384

noncomputable section

open scoped BigOperators

namespace Cert.KernelIdeal.Whole

open Cert.KernelIdeal Cert.KernelIdeal.Gen
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-- The regrouped scales. -/
abbrev scales (c : Dev nD) : Vec Ideal S16384x64 .f32 :=
  shapeCast S16384x64 (m ((c : Thread nD τ).loc main_arg2)) Facts₀.shapeCasts_S1048576_S16384x64

/-- The input through bf16, regrouped as a matrix. -/
abbrev rows (c : Dev nD) : FVec Ideal S8192x4096 .bf16 :=
  shapeCast S8192x4096
    (truncf .bf16 (m ((c : Thread nD τ).loc main_arg0) : FVec Ideal S4x2048x4096 .f32) Facts₀.bitsLt_bf16_f32 : FVec Ideal S4x2048x4096 .bf16)
    Facts₀.shapeCasts_S4x2048x4096_S8192x4096

/-- The first launch finds the code words as launched … -/
theorem V1_arg1 (c : Dev nD) : V1 m ρ c main_arg1 = m ((c : Thread nD τ).loc main_arg1) := by
  show StableHlo.after hostOps0 (W0 m ρ c) (Proc.devRef .tc main_arg1) = _
  after_results <;> rfl

/-- … and the scales regrouped. -/
theorem V1_v0 (c : Dev nD) : V1 m ρ c main_v0 = scales m c := by
  show StableHlo.after hostOps0 (W0 m ρ c) (Proc.devRef .tc main_v0) = _
  after_results <;> rfl

/-- After the first launch its output buffer holds the dequantized matrix. -/
theorem W2_v1 (c : Dev nD) :
    W2 m ρ c (Proc.devRef .tc main_v1) = Dequant.deq (m ((c : Thread nD τ).loc main_arg1)) (scales m c) :=
  (W2_arr m ρ c 2).trans ((Dequant.final (V1 m ρ) c).trans (by rw [V1_arg1, V1_v0]))

/-- The input is untouched by the first launch and by the operation before it. -/
theorem W2_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results <;> rfl)

/-- The second launch finds the dequantized matrix … -/
theorem V3_v1 (c : Dev nD) :
    V3 m ρ c main_v1 = Dequant.deq (m ((c : Thread nD τ).loc main_arg1)) (scales m c) := by
  show StableHlo.after hostOps1 (W2 m ρ c) (Proc.devRef .tc main_v1) = _
  after_results
  exact W2_v1 m ρ c

/-- … and the input's rows. -/
theorem V3_v3 (c : Dev nD) : V3 m ρ c main_v3 = rows m c := by
  show StableHlo.after hostOps1 (W2 m ρ c) (Proc.devRef .tc main_v3) = _
  after_results
  exact congrArg (fun z : FVec Ideal S4x2048x4096 .f32 =>
    (shapeCast S8192x4096 (truncf .bf16 z Facts₀.bitsLt_bf16_f32 : FVec Ideal S4x2048x4096 .bf16)
      Facts₀.shapeCasts_S4x2048x4096_S8192x4096 : FVec Ideal S8192x4096 .bf16)) (W2_arg0 m ρ c)

/-- After the second launch its output buffer holds the product. -/
theorem W4_v4 (c : Dev nD) :
    W4 m ρ c (Proc.devRef .tc main_v4)
      = MatProd.mm (rows m c) (Dequant.deq (m ((c : Thread nD τ).loc main_arg1)) (scales m c)) :=
  (W4_arr m ρ c 2).trans ((MatProd.final (V3 m ρ) c).trans (by rw [V3_v3, V3_v1]))

/-- The result buffer holds the product regrouped. -/
theorem W5_v5 (c : Dev nD) :
    W5 m ρ c (Proc.devRef .tc main_v5)
      = shapeCast S4x2048x16384 (MatProd.mm (rows m c) (Dequant.deq (m ((c : Thread nD τ).loc main_arg1)) (scales m c)))
          Facts₀.shapeCasts_S8192x16384_S4x2048x16384 := by
  show StableHlo.after hostOps2 (W4 m ρ c) (Proc.devRef .tc main_v5) = _
  after_results
  exact congrArg (fun z : Vec Ideal S8192x16384 .f32 =>
    shapeCast S4x2048x16384 z Facts₀.shapeCasts_S8192x16384_S4x2048x16384) (W4_v4 m ρ c)

/-- THE KERNEL IS THE SPECIFICATION: the result buffer holds `outArr` of the three arguments as launched. -/
theorem result_eq (c : Dev nD) :
    W5 m ρ c (Proc.devRef .tc main_v5)
      = QuantLinear.outArr (m ((c : Thread nD τ).loc main_arg0)) (m ((c : Thread nD τ).loc main_arg1)) (m ((c : Thread nD τ).loc main_arg2)) := by
  rw [W5_v5]
  funext j
  obtain ⟨b, s, o, rfl⟩ : ∃ (b : Fin 4) (s : Fin 2048) (o : Fin 16384), j = ix3 b s o := ⟨j 0, j 1, j 2, eq_ix3 j⟩
  rw [QuantLinear.outArr_apply]
  have hR : b.val * 2048 + s.val < 8192 := by omega
  rw [shapeCast_apply _ _ (ix3 b s o) (ix2 (⟨b.val * 2048 + s.val, hR⟩ : Fin 8192) o) (by
    rw [Shape.rowMajor_val_two, Shape.rowMajor_val_three]
    rfl)]
  rw [MatProd.mm_apply]
  unfold QuantLinear.out
  refine Finset.sum_congr rfl fun k _ => ?_
  have hg : k.val / 64 < 64 := by omega
  dsimp only [rows]
  rw [shapeCast_apply _ _ (ix2 (⟨b.val * 2048 + s.val, hR⟩ : Fin 8192) k) (ix3 b s k) (by
    rw [Shape.rowMajor_val_two, Shape.rowMajor_val_three]
    rfl)]
  rw [Dequant.deq_apply]
  dsimp only [scales]
  rw [shapeCast_apply _ _ (ix2 o (⟨k.val / 64, hg⟩ : Fin 64)) (ix1 (QuantLinear.blockOf o k)) (by
    rw [Shape.rowMajor_val_one, Shape.rowMajor_val_two]
    rfl)]
  rfl

end Cert.KernelIdeal.Whole

end
-- ==== Proof.RefRun.lean ====
/-
  The reference program's run, read back.

  The reference is eighteen host operations in a straight line: the sixteen-entry table of levels; the code words with 16
  added where they are negative; the table looked up at those words (a gather that reads each word signed and clamps it
  into the table); the looked-up levels regrouped into blocks of 64 and multiplied by one scale per block; the product
  regrouped back into a [16384, 4096] matrix, passed through bf16 and back; and the contraction of the input's last axis
  with that matrix's last axis.

  `result` names what the last buffer holds as ONE term of the three argument arrays, in three layers (`codes`,
  `weights`, `result`), and `run` says that every weakly fair execution of the program terminates with the result
  buffer at that term and the arguments as launched: the operations are listed in order (`ops`), the program is their
  sequence by unfolding, and the run of a sequence of host operations leaves each buffer at the fold of their results.
-/
import proofs.«404746_j53068615909971_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The table of levels as the program's first operation writes it. -/
def table : FVec F S16 .f32 := fun i => FloatOps.ofBits .f32 (lit0 (S16.rowMajor i))

/-- The looked-up level of every code word: 16 added to the negative words, then the table read at the word (signed,
    clamped into the table). -/
def codes (q : IVec S16384x4096 32) : FVec F S16384x4096 .f32 :=
  Host.gather gather_S16_S16384x4096x1_S16384x4096_n_0_n_n_0_2_1 (table (F := F))
    (broadcastInDim S16384x4096x1 ![0, 1] bcast_S16384x4096_S16384x4096x1_0_1
      (select (cmpi .slt q (broadcastInDim S16384x4096 ![] bcast_S_S16384x4096 (constantI S_ 32 0#32)))
        (addi q (broadcastInDim S16384x4096 ![] bcast_S_S16384x4096 (constantI S_ 32 16#32))) q))

/-- The dequantized weights: the levels in blocks of 64, each block times its scale, back as a [16384, 4096] matrix. -/
def weights (q : IVec S16384x4096 32) (a : FVec F S1048576 .f32) : FVec F S16384x4096 .f32 :=
  shapeCast S16384x4096
    (mulf (shapeCast S1048576x64 (codes (F := F) q) shapeCasts_S16384x4096_S1048576x64)
      (broadcastInDim S1048576x64 ![0, 1] bcast_S1048576x1_S1048576x64_0_1
        (broadcastInDim S1048576x1 ![0] bcast_S1048576_S1048576x1_0 a)))
    shapeCasts_S1048576x64_S16384x4096

/-- The result: the input contracted with the weights (through bf16 and back) over their last axes. -/
def result (x : FVec F S4x2048x4096 .f32) (q : IVec S16384x4096 32) (a : FVec F S1048576 .f32) : FVec F S4x2048x16384 .f32 :=
  Host.dotGeneral dot_S4x2048x4096_S16384x4096_S4x2048x16384_2_1_01_0_n_n none x
    (extf .f32 (truncf .bf16 (weights q a) bitsLt_bf16_f32) bitsLt_bf16_f32)

/-- The program's eighteen operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S16384x4096 ![] bcast_S_S16384x4096 : (⟨S_, .i32⟩ : BufTy).Contents (Elt F) → (⟨S16384x4096, .i32⟩ : BufTy).Contents (Elt F)),
    binary main_arg1 main_v0 main_v1 (cmpi .slt : (⟨S16384x4096, .i32⟩ : BufTy).Contents (Elt F) → (⟨S16384x4096, .i32⟩ : BufTy).Contents (Elt F) → (⟨S16384x4096, .i1⟩ : BufTy).Contents (Elt F)),
    nullary main_c_0 (constantI S_ 32 16#32),
    unary main_c_0 main_v2 (broadcastInDim S16384x4096 ![] bcast_S_S16384x4096 : (⟨S_, .i32⟩ : BufTy).Contents (Elt F) → (⟨S16384x4096, .i32⟩ : BufTy).Contents (Elt F)),
    binary main_arg1 main_v2 main_v3 (addi : (⟨S16384x4096, .i32⟩ : BufTy).Contents (Elt F) → (⟨S16384x4096, .i32⟩ : BufTy).Contents (Elt F) → (⟨S16384x4096, .i32⟩ : BufTy).Contents (Elt F)),
    ternary main_v1 main_v3 main_arg1 main_v4 (select : (⟨S16384x4096, .i1⟩ : BufTy).Contents (Elt F) → (⟨S16384x4096, .i32⟩ : BufTy).Contents (Elt F) → (⟨S16384x4096, .i32⟩ : BufTy).Contents (Elt F) → (⟨S16384x4096, .i32⟩ : BufTy).Contents (Elt F)),
    unary main_v4 main_v5 (broadcastInDim S16384x4096x1 ![0, 1] bcast_S16384x4096_S16384x4096x1_0_1 : (⟨S16384x4096, .i32⟩ : BufTy).Contents (Elt F) → (⟨S16384x4096x1, .i32⟩ : BufTy).Contents (Elt F)),
    binary main_cst main_v5 main_v6 ((fun x i => Host.gather gather_S16_S16384x4096x1_S16384x4096_n_0_n_n_0_2_1 x i) : (⟨S16, .f32⟩ : BufTy).Contents (Elt F) → (⟨S16384x4096x1, .i32⟩ : BufTy).Contents (Elt F) → (⟨S16384x4096, .f32⟩ : BufTy).Contents (Elt F)),
    reshape main_v6 main_v7 rfl shapeCasts_S16384x4096_S1048576x64,
    unary main_arg2 main_v8 (broadcastInDim S1048576x1 ![0] bcast_S1048576_S1048576x1_0 : (⟨S1048576, .f32⟩ : BufTy).Contents (Elt F) → (⟨S1048576x1, .f32⟩ : BufTy).Contents (Elt F)),
    unary main_v8 main_v9 (broadcastInDim S1048576x64 ![0, 1] bcast_S1048576x1_S1048576x64_0_1 : (⟨S1048576x1, .f32⟩ : BufTy).Contents (Elt F) → (⟨S1048576x64, .f32⟩ : BufTy).Contents (Elt F)),
    binary main_v7 main_v9 main_v10 (mulf : (⟨S1048576x64, .f32⟩ : BufTy).Contents (Elt F) → (⟨S1048576x64, .f32⟩ : BufTy).Contents (Elt F) → (⟨S1048576x64, .f32⟩ : BufTy).Contents (Elt F)),
    reshape main_v10 main_v11 rfl shapeCasts_S1048576x64_S16384x4096,
    unary main_v11 main_v12 ((truncf .bf16 · bitsLt_bf16_f32) : (⟨S16384x4096, .f32⟩ : BufTy).Contents (Elt F) → (⟨S16384x4096, .bf16⟩ : BufTy).Contents (Elt F)),
    unary main_v12 main_v13 ((extf .f32 · bitsLt_bf16_f32) : (⟨S16384x4096, .bf16⟩ : BufTy).Contents (Elt F) → (⟨S16384x4096, .f32⟩ : BufTy).Contents (Elt F)),
    binary main_arg0 main_v13 main_v14 ((fun l r => Host.dotGeneral dot_S4x2048x4096_S16384x4096_S4x2048x16384_2_1_01_0_n_n none l r) : (⟨S4x2048x4096, .f32⟩ : BufTy).Contents (Elt F) → (⟨S16384x4096, .f32⟩ : BufTy).Contents (Elt F) → (⟨S4x2048x16384, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., reshape_bufs_sub .., unary_bufs_sub ..,
    unary_bufs_sub .., binary_bufs_sub .., reshape_bufs_sub .., unary_bufs_sub .., unary_bufs_sub .., binary_bufs_sub ..⟩

/-- On every device, from any memory with zero counters: every weakly fair execution of the reference terminates with
    its result buffer at `result` of the three arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v14).trans (by after_results <;> rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.HandRun

end
-- ==== Proof.RefValue.lean ====
/-
  The reference computes the specification, when no code word is negative.

  Read at (b, s, o) the contraction is `∑ c, x (b, s, c) · W (o, c)`; the passage through bf16 and back changes nothing at
  the ideal values; `W (o, c)` is entry (o · 64 + c / 64, c mod 64) of the blocked product, whose two factors there are the
  looked-up level of code word (o, c) and scale number o · 64 + c / 64; and the looked-up level is the table at the word
  clamped into 0 … 15 — the word itself having come through "add 16 if negative" unchanged, which is where the
  hypothesis on the code words is used.
-/
import proofs.«404746_j53068615909971_3_alg».proof.Proof.RefRun
import proofs.«404746_j53068615909971_3_alg».proof.Proof.Spec
import proofs.«404746_j53068615909971_3_alg».proof.Proof.LibDotLastAxis
import Idealize.ShloMosaic.Lib.Pipeline.Value

noncomputable section

open scoped BigOperators

namespace Cert.ReferenceIdeal.HandValue

open Cert.ReferenceIdeal Cert.ReferenceIdeal.Gen Cert.ReferenceIdeal.HandRun
open Idealize.ShloMosaic Idealize.ShloMosaic.ValueIdx

/-- The program's table holds, at position `n`, the level `word n`. -/
theorem table_apply (n : Fin 16) : table (F := Ideal) (ix1 n) = Ideal.ofBits .f32 (NF4.word n) := by
  fin_cases n <;> rfl

/-- The looked-up level of code word (o, c), when that word is not negative, is the level the word names. -/
theorem codes_apply (q : IVec S16384x4096 32) (o : Fin 16384) (c : Fin 4096)
    (hq : IntOp.cmpi .sge (q (ix2 o c)) 0#32 = 1#1) :
    codes (F := Ideal) q (ix2 o c) = NF4.level (q (ix2 o c)) := by
  unfold codes
  have hrec : gather_S16_S16384x4096x1_S16384x4096_n_0_n_n_0_2_1
      = takeDims 16 16384 4096 Facts₀.gather_S16_S16384x4096x1_S16384x4096_n_0_n_n_0_2_1_wf := rfl
  rw [hrec, gather_take_apply (by decide)]
  have hidx : (broadcastInDim S16384x4096x1 ![0, 1] Facts₀.bcast_S16384x4096_S16384x4096x1_0_1
      (select (cmpi .slt q (broadcastInDim S16384x4096 ![] Facts₀.bcast_S_S16384x4096 (constantI S_ 32 0#32)))
        (addi q (broadcastInDim S16384x4096 ![] Facts₀.bcast_S_S16384x4096 (constantI S_ 32 16#32))) q))
      (takeIdx (ix2 o c)) = q (ix2 o c) := by
    rw [broadcastInDim_apply _ _ _ _ (ix2 o c) (by
      intro a
      match a with
      | ⟨0, _⟩ => rfl
      | ⟨1, _⟩ => rfl)]
    exact NF4.wrap_of_nonneg hq
  have hpos : (⟨min ((broadcastInDim S16384x4096x1 ![0, 1] Facts₀.bcast_S16384x4096_S16384x4096x1_0_1
      (select (cmpi .slt q (broadcastInDim S16384x4096 ![] Facts₀.bcast_S_S16384x4096 (constantI S_ 32 0#32)))
        (addi q (broadcastInDim S16384x4096 ![] Facts₀.bcast_S_S16384x4096 (constantI S_ 32 16#32))) q))
      (takeIdx (ix2 o c))).toInt.toNat (16 - 1), by omega⟩ : Fin 16) = NF4.pos (q (ix2 o c)) := by
    apply Fin.ext
    show min _ (16 - 1) = min _ 15
    rw [hidx]
  rw [hpos, table_apply]
  rfl

/-- The reference's weight matrix at (o, c) is the dequantized weight of the specification. -/
theorem weights_apply (q : IVec S16384x4096 32) (a : FVec Ideal S1048576 .f32) (o : Fin 16384) (c : Fin 4096)
    (hq : IntOp.cmpi .sge (q (ix2 o c)) 0#32 = 1#1) :
    weights (F := Ideal) q a (ix2 o c) = QuantLinear.weight q a o c := by
  unfold weights
  have hb : o.val * 64 + c.val / 64 < 1048576 := by omega
  have hl : c.val % 64 < 64 := Nat.mod_lt _ (by decide)
  rw [shapeCast_apply _ _ (ix2 o c) (ix2 (⟨o.val * 64 + c.val / 64, hb⟩ : Fin 1048576) (⟨c.val % 64, hl⟩ : Fin 64)) (by
    rw [Shape.rowMajor_val_two, Shape.rowMajor_val_two]
    show (o.val * 64 + c.val / 64) * 64 + c.val % 64 = o.val * 4096 + c.val
    omega)]
  rw [mulf_apply]
  rw [shapeCast_apply _ _ (ix2 (⟨o.val * 64 + c.val / 64, hb⟩ : Fin 1048576) (⟨c.val % 64, hl⟩ : Fin 64)) (ix2 o c) (by
    rw [Shape.rowMajor_val_two, Shape.rowMajor_val_two]
    show o.val * 4096 + c.val = (o.val * 64 + c.val / 64) * 64 + c.val % 64
    omega)]
  rw [codes_apply q o c hq]
  rw [broadcastInDim_apply _ _ _ (ix2 (⟨o.val * 64 + c.val / 64, hb⟩ : Fin 1048576) (⟨c.val % 64, hl⟩ : Fin 64))
    (ix2 (⟨o.val * 64 + c.val / 64, hb⟩ : Fin 1048576) (0 : Fin 1)) (by
      intro ax
      match ax with
      | ⟨0, _⟩ => rfl
      | ⟨1, _⟩ => rfl)]
  rw [broadcastInDim_apply _ _ _ (ix2 (⟨o.val * 64 + c.val / 64, hb⟩ : Fin 1048576) (0 : Fin 1))
    (ix1 (⟨o.val * 64 + c.val / 64, hb⟩ : Fin 1048576)) (by
      intro ax
      match ax with
      | ⟨0, _⟩ => rfl)]
  rfl

/-- THE REFERENCE IS THE SPECIFICATION on code words that are not negative. -/
theorem result_eq (x : FVec Ideal S4x2048x4096 .f32) (q : IVec S16384x4096 32) (a : FVec Ideal S1048576 .f32)
    (hq : ∀ i : S16384x4096.Idx, IntOp.cmpi .sge (q i) 0#32 = 1#1) :
    result (F := Ideal) x q a = QuantLinear.outArr x q a := by
  funext j
  obtain ⟨b, s, o, rfl⟩ : ∃ (b : Fin 4) (s : Fin 2048) (o : Fin 16384), j = ix3 b s o := ⟨j 0, j 1, j 2, eq_ix3 j⟩
  rw [QuantLinear.outArr_apply]
  unfold result QuantLinear.out
  have hrec : dot_S4x2048x4096_S16384x4096_S4x2048x16384_2_1_01_0_n_n
      = (⟨[2], [1], [0, 1], [0], [], [], Facts₀.dot_S4x2048x4096_S16384x4096_S4x2048x16384_2_1_01_0_n_n_wf⟩ :
          DotDims ⟨3, ![4, 2048, 4096]⟩ ⟨2, ![16384, 4096]⟩ ⟨3, ![4, 2048, 16384]⟩) := rfl
  rw [hrec, LibDotLastAxis.dotGeneral_stack_apply]
  refine Finset.sum_congr rfl fun c _ => ?_
  refine congrArg (x (ix3 b s c) * ·) ?_
  exact weights_apply q a o c (hq _)

end Cert.ReferenceIdeal.HandValue

end
-- ==== Proof.PreRead.lean ====
/-
  What the precondition says about the code words.

  The precondition is the conjunction of three "all" reductions: every input entry finite, every scale finite, and every
  code word not negative (a signed comparison `≥ 0` reduced by `and` over the whole [16384, 4096] array). Where the
  conjunction is 1 its last conjunct is 1, and a reduction by `and` into one value that is 1 had a 1 at every entry: so
  every code word compares `≥ 0`. The two finiteness conjuncts are not needed: both programs compute the same finite sums
  of the same products, and no law that fails at an infinity is used to compare them.
-/
import proofs.«404746_j53068615909971_3_alg».proof.Pre_finite_inputs
import Idealize.ShloMosaic.Lib.ReduceAll
import Idealize.ShloMosaic.Lib.Affine
import Idealize.ShloMosaic.Lib.ValueIdx

noncomputable section

namespace Cert.Pre_finite_inputs.Read

open Idealize.ShloMosaic Cert.Pre_finite_inputs

instance : Subsingleton S_.Idx := ⟨fun a b => funext fun d => d.elim0⟩

/-- Under the precondition every code word is not negative. -/
theorem codes_nonneg [Facts] {F : FTy → Type} [FloatOps F] (x : FVec F S4x2048x4096 .f32) (q : IVec S16384x4096 32)
    (a : FVec F S1048576 .f32) (h : fn x q a = fun _ => 1#1) (i : S16384x4096.Idx) :
    IntOp.cmpi .sge (q i) 0#32 = 1#1 := by
  have h0 := congrFun h ValueIdx.ix0
  dsimp only [fn] at h0
  have h1 := (IntOp.andi_eq_one.mp h0).2
  exact Host.reduce_andi_all _ _ _ _ _ h1 i

end Cert.Pre_finite_inputs.Read

end
-- ==== Proof.lean ====
/-
  A 4-bit-quantized linear layer against its reference: both compute, for an input x : [4, 2048, 4096], code words
  q : [16384, 4096] and block scales a : [1048576],

      out (b, s, o) = ∑ k, x (b, s, k) · (level (q (o, k)) · a (o · 64 + k / 64)),

  where `level` reads a code word as a signed integer, clamps it into 0 … 15 and takes that entry of the sixteen NF4
  levels (Proof/Spec.lean, Proof/Codebook.lean).

  The kernel does it in two launches with a cast and two regroupings around them: a dequantization launch that clips each
  code word into 0 … 15, picks the level by a tree of selects on the clipped word's four bits and multiplies by the
  block's scale (Proof/Dequant.lean), and a blocked matrix product of the input's rows with the dequantized rows
  (Proof/MatProd.lean, over Proof/LibDotLastAxis.lean); read back through the buffers between the launches the result is
  `out` at EVERY input (Proof/KernelValue.lean, over the run of the whole program with its result buffer named,
  Proof/KernelRun.lean).

  The reference looks the levels up in a table with a gather that adds 16 to a negative index first and then clamps, scales
  the levels in blocks of 64, and contracts (its run: Proof/RefRun.lean; its value: Proof/RefValue.lean). On a code word
  that is not negative the added 16 never applies and the clamp is the kernel's clip, so the reference is `out` too; on
  the words -15 … -1 it reads level q + 16 where the kernel reads level 0, which is why the statement carries the
  precondition that no code word is negative (Proof/PreRead.lean reads it off the printed predicate). The passage of the
  weights and of the input through bf16 is the identity at the ideal values, and the two sums are the same finite sum of
  the same products, so the finiteness of the inputs is never used.

  The idealized kernel is the kernel's own text read at the ideal values, nothing in it rewritten, so `preserves` has
  nothing to say; the two kernel frames are the generated ones, and the reference's frame is its run with the result
  forgotten.
-/
import proofs.«404746_j53068615909971_3_alg».proof.Defs
import proofs.«404746_j53068615909971_3_alg».proof.Proof.Gen.Kernel
import proofs.«404746_j53068615909971_3_alg».proof.Proof.Gen.Kernel.Skeleton
import proofs.«404746_j53068615909971_3_alg».proof.Proof.Gen.Kernel.Launch
import proofs.«404746_j53068615909971_3_alg».proof.Proof.Gen.Kernel.Points
import proofs.«404746_j53068615909971_3_alg».proof.Proof.Gen.Kernel.Frame
import proofs.«404746_j53068615909971_3_alg».proof.Proof.Gen.KernelIdeal
import proofs.«404746_j53068615909971_3_alg».proof.Proof.Gen.KernelIdeal.Skeleton
import proofs.«404746_j53068615909971_3_alg».proof.Proof.Gen.KernelIdeal.Launch
import proofs.«404746_j53068615909971_3_alg».proof.Proof.Gen.KernelIdeal.Points
import proofs.«404746_j53068615909971_3_alg».proof.Proof.Gen.KernelIdeal.Frame
import proofs.«404746_j53068615909971_3_alg».proof.Proof.Gen.ReferenceIdeal
import proofs.«404746_j53068615909971_3_alg».proof.Proof.Gen.Pre_finite_inputs
import proofs.«404746_j53068615909971_3_alg».proof.Proof.KernelRun
import proofs.«404746_j53068615909971_3_alg».proof.Proof.KernelValue
import proofs.«404746_j53068615909971_3_alg».proof.Proof.RefRun
import proofs.«404746_j53068615909971_3_alg».proof.Proof.RefValue
import proofs.«404746_j53068615909971_3_alg».proof.Proof.PreRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.HandRun.run (F := Ideal) m ρ)

/-- Nothing was rewritten in the kernel's idealization. -/
theorem preserves : Cert.preserves_Kernel_KernelIdeal := trivial

/-- Both programs end with the result buffer at `outArr` of the arguments: the kernel at every input, the reference
    because the precondition keeps every code word from being negative. -/
theorem algebraic : Cert.algebraic_KernelIdeal_ReferenceIdeal := by
  intro m ρ m' ρ' hpre hagree
  refine ⟨fun c => Cert.QuantLinear.outArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Whole.result_eq m ρ c), (h c).2⟩)
      (Cert.KernelIdeal.GenRun.run m ρ)
  · refine (θ_run Cert.ReferenceIdeal.defs _ _).mono (fun r h c => ⟨(h c).1.trans ?_, (h c).2⟩)
      (Cert.ReferenceIdeal.HandRun.run (F := Ideal) m' ρ')
    rw [(hagree c).1, (hagree c).2.1, (hagree c).2.2]
    exact Cert.ReferenceIdeal.HandValue.result_eq _ _ _
      (fun i => Cert.Pre_finite_inputs.Read.codes_nonneg _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
